-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S10000x128 : Shape := ⟨2, ![10000, 128]⟩

abbrev nBuf : Space → Nat
  | .hbm => 63
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S_, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S1x128, .f32⟩
  | .hbm, ⟨62, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S128x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of the two-layer graph network, stated once, away from both programs.

  A node array is `[100000, 128]`. One layer takes a node array `x`, a neighbour aggregate `a` of the same shape, a weight
  matrix `W` of shape `[128, 128]` and a bias `b` of shape `[128]`, and yields at node `r`, feature `q`

      (∑ k, (x[r, k] + a[r, k]) · W[q, k]) + b[q]

  on the extended reals: the product of row `r` of `x + a` with the TRANSPOSE of `W`, plus the bias. The first layer is
  followed by `max(·, 0)`. The sum is over the 128 input features, in no particular order: addition on the extended reals
  is commutative and associative, which is all the two programs' different groupings of it need.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

abbrev Nodes : Shape := ⟨2, ![100000, 128]⟩
abbrev Weights : Shape := ⟨2, ![128, 128]⟩
abbrev BiasRow : Shape := ⟨2, ![1, 128]⟩
abbrev Bias : Shape := ⟨1, ![128]⟩

/-- Entry `q` of one output row, from the row `xr` of the node array, the row `ar` of the aggregate, a matrix `Wt`
    read as `Wt[k, q]` (the weight already transposed) and the bias as a `[1, 128]` row. This is the form both
    kernels' tiles and the layout-level reading of the reference arrive at. -/
def rowEntry (xr ar : Fin 128 → EReal) (Wt : FVec Ideal Weights .f32) (brow : FVec Ideal BiasRow .f32) (q : Fin 128) : EReal :=
  (∑ k : Fin 128, (xr k + ar k) * Wt (ix2 k q)) + brow (ix2 0 q)

/-- The affine stage over whole arrays, in the transposed weight and the bias row. -/
def affineT (x a : FVec Ideal Nodes .f32) (Wt : FVec Ideal Weights .f32) (brow : FVec Ideal BiasRow .f32) : FVec Ideal Nodes .f32 :=
  fun i => rowEntry (fun k => x (ix2 ⟨(i 0).val, (i 0).isLt⟩ k)) (fun k => a (ix2 ⟨(i 0).val, (i 0).isLt⟩ k)) Wt brow ⟨(i 1).val, (i 1).isLt⟩

/-- The affine stage over whole arrays, in the weight `W[q, k]` and the bias `b[q]` as the network is given them. -/
def affine (x a : FVec Ideal Nodes .f32) (W : FVec Ideal Weights .f32) (b : FVec Ideal Bias .f32) : FVec Ideal Nodes .f32 :=
  fun i => (∑ k : Fin 128, (x (ix2 ⟨(i 0).val, (i 0).isLt⟩ k) + a (ix2 ⟨(i 0).val, (i 0).isLt⟩ k)) * W (ix2 ⟨(i 1).val, (i 1).isLt⟩ k))
    + b (ix1 ⟨(i 1).val, (i 1).isLt⟩)

/-- `max(·, 0)`, entry by entry. -/
def relu (y : FVec Ideal Nodes .f32) : FVec Ideal Nodes .f32 := fun i => max (y i) 0

/-- With the transposed weight and the bias row read back to the weight and the bias, the two forms agree. -/
theorem affineT_eq (x a : FVec Ideal Nodes .f32) (Wt W : FVec Ideal Weights .f32) (brow : FVec Ideal BiasRow .f32)
    (b : FVec Ideal Bias .f32) (hW : ∀ k q : Fin 128, Wt (ix2 k q) = W (ix2 q k)) (hb : ∀ q : Fin 128, brow (ix2 0 q) = b (ix1 q)) :
    affineT x a Wt brow = affine x a W b := by
  funext i
  unfold affineT affine rowEntry
  rw [hb]
  exact congrArg (· + _) (Finset.sum_congr rfl fun k _ => by rw [hW])

/-- The whole network over an abstract aggregation `agg` (both programs compute the aggregate by one and the same
    chain of gather, scatter-add and division, which the proof never opens): two layers, `max(·, 0)` after the first. -/
def network (agg : FVec Ideal Nodes .f32 → FVec Ideal Nodes .f32) (x : FVec Ideal Nodes .f32)
    (W1 : FVec Ideal Weights .f32) (b1 : FVec Ideal Bias .f32) (W2 : FVec Ideal Weights .f32) (b2 : FVec Ideal Bias .f32) :
    FVec Ideal Nodes .f32 :=
  affine (relu (affine x (agg x) W1 b1)) (agg (relu (affine x (agg x) W1 b1))) W2 b2

end Cert.Gin

end
-- ==== Proof.KernelPayload.lean ====
/-
  What each kernel body stores, read at one entry of its tile.

  A tile is 10000 rows of the node array. Both bodies load the node tile `x0`, the aggregate tile `x1`, the whole
  transposed weight `x2` and the bias row `x3`, form `x0 + x1`, multiply by `x2` on the matrix unit into a zero
  accumulator, and add the bias row broadcast down the tile; the first body then takes `max(·, 0)`. At the extended
  reals the matrix product into zero is the plain sum over the contracted axis, so entry `(p, q)` of the stored tile
  is `rowEntry` of row `p` of the two loaded tiles.
-/
import proofs.«148217_j75127567942136_1_alg».proof.Proof.Gen.KernelIdeal.Skeleton
import proofs.«148217_j75127567942136_1_alg».proof.Proof.Spec
import Idealize.ShloMosaic.Lib.Pipeline.Value
import Idealize.ShloMosaic.Lib.ValueIdx
import Idealize.ShloMosaic.PureOps.Ideal.Laws

noncomputable section

namespace Cert.Gin.Payload

open Idealize.ShloMosaic Idealize.ShloMosaic.ValueIdx Cert.KernelIdeal Cert.KernelIdeal.Gen Cert.KernelIdeal.Facts₀

/-! ## The tile's matrix product: which operand entries meet at an output entry -/

theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile's product into the zero accumulator, at entry `(p, q)`: row `p` of the left operand against column `q`
    of the right, summed over the 128 contracted features. -/
theorem tile_matmul_apply (l : FVec Ideal S10000x128 .f32) (r : FVec Ideal S128x128 .f32) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_contr _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The bias row broadcast down the tile, at entry `(p, q)`, is the row's entry `q`. -/
theorem bias_bcast_apply (x3 : FVec Ideal S1x128 .f32) (p : Fin 10000) (q : Fin 128) :
    broadcastTo S10000x128 x3 Facts₀.broadcasts_S1x128_S10000x128 (ix2 p q) = x3 (ix2 0 q) :=
  broadcastTo_apply x3 Facts₀.broadcasts_S1x128_S10000x128 (ix2 p q) (ix2 0 q) (fun a => by
    match a with
    | ⟨0, _⟩ => show 0 = if (1 : Nat) = 1 then 0 else _; rw [if_pos rfl]
    | ⟨1, _⟩ => show q.val = if (128 : Nat) = 1 then 0 else q.val; rw [if_neg (by decide)])

/-- The second body's stored tile at `(p, q)`: the affine row entry. -/
theorem pay1_apply (x0 x1 : FVec Ideal S10000x128 .f32) (x2 : FVec Ideal S128x128 .f32) (x3 : FVec Ideal S1x128 .f32)
    (p : Fin 10000) (q : Fin 128) :
    k1_pay1 (F := Ideal) x0 x1 x2 x3 (ix2 p q) = rowEntry (fun k => x0 (ix2 p k)) (fun k => x1 (ix2 p k)) x2 x3 q := by
  unfold k1_pay1
  simp only [shapeCast_self]
  show matmul dot_S10000x128_S128x128_S10000x128_1_0_0_1_n_n none (addf x0 x1) x2 (constant (F := Ideal) S10000x128 .f32 0x00000000#32) (ix2 p q)
      + broadcastTo S10000x128 x3 Facts₀.broadcasts_S1x128_S10000x128 (ix2 p q) = _
  rw [tile_matmul_apply, bias_bcast_apply]
  rfl

/-- The first body's stored tile at `(p, q)`: the affine row entry, cut off below at zero. -/
theorem pay0_apply (x0 x1 : FVec Ideal S10000x128 .f32) (x2 : FVec Ideal S128x128 .f32) (x3 : FVec Ideal S1x128 .f32)
    (p : Fin 10000) (q : Fin 128) :
    k0_pay1 (F := Ideal) x0 x1 x2 x3 (ix2 p q) = max (rowEntry (fun k => x0 (ix2 p k)) (fun k => x1 (ix2 p k)) x2 x3 q) 0 := by
  unfold k0_pay1
  simp only [shapeCast_self]
  show max (matmul dot_S10000x128_S128x128_S10000x128_1_0_0_1_n_n none (addf x0 x1) x2 (constant (F := Ideal) S10000x128 .f32 0x00000000#32) (ix2 p q)
      + broadcastTo S10000x128 x3 Facts₀.broadcasts_S1x128_S10000x128 (ix2 p q)) (Ideal.ofBits .f32 0x00000000#32) = _
  rw [tile_matmul_apply, bias_bcast_apply, Ideal.ofBits_zero_f32]
  rfl

end Cert.Gin.Payload

end
-- ==== Proof.KernelRegion0.lean ====
/-
  The first layer's call, from tiles to its whole output array.

  The call runs its body at ten grid points; at point `t` the body sees rows `10000·t … 10000·t + 9999` of the node
  array and of the aggregate, the whole transposed weight and the whole bias row, and what it stores is written back to
  the same rows of the output array. The stored tile is, entry by entry, the layer's row formula (the payload lemma);
  the tiles' rows are the arrays' rows (the index maps, decided over the grid); and the ten tiles cover the output. So
  the output array after the call is the layer's whole-array function of the four arrays the call is entered with,
  whatever those are: the statements are at an arbitrary entry contents `V`.
-/
import proofs.«148217_j75127567942136_1_alg».proof.Proof.Gen.KernelIdeal.Frame
import proofs.«148217_j75127567942136_1_alg».proof.Proof.KernelPayload

set_option maxRecDepth 16384

noncomputable section

namespace Cert.Gin.Region0

open Idealize.ShloMosaic Idealize.ShloMosaic.TcCoe Idealize.ShloMosaic.ValueIdx Idealize.SL.Sem
open Cert.KernelIdeal Cert.KernelIdeal.Gen Cert.Gin Cert.Gin.Payload
open Idealize.ShloMosaic.Pipeline (Dat Cfg Window)

variable (V : (c : Dev nD) → (b : Ref sig .tc) → Buf (Elt Ideal) ((c : Thread nD τ).loc b))

/-- This layer's whole-array function of the node array, the aggregate, the transposed weight and the bias row. -/
abbrev layer (x a : FVec Ideal Nodes .f32) (Wt : FVec Ideal Weights .f32) (brow : FVec Ideal BiasRow .f32) : FVec Ideal Nodes .f32 :=
  relu (affineT x a Wt brow)

theorem hz : (![0, 0] : Fin 2 → Nat) = fun _ => 0 := funext fun a => by fin_cases a <;> rfl

/-- The printed index maps of the call, decided once over its ten grid points: the node tile, the aggregate tile and
    the output tile all sit at row-block `t`, column-block `0`; the weight and the bias row are their whole arrays. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = t.val ∧ win0_4.index t (1 : Fin 2) = 0 :=
  (by decide +kernel : ∀ t : Fin grid0.N, _)

/-- Row `p` of tile `t` is row `10000·t + p` of the node array. -/
def row (t : Fin cfg0.N) (p : Fin 10000) : Fin 100000 :=
  ⟨t.val * 10000 + p.val, by have h : t.val < 10 := lt_of_lt_of_eq t.isLt N_0; have := p.isLt; omega⟩

/-- The node tile at a point is the node array's rows `10000·t …`. -/
theorem tile_x (c : Dev nD) (t : Fin cfg0.N) (p : Fin 10000) (k : Fin 128) :
    iblk0 V c 0 t (ix2 p k) = V c main_arg0 (ix2 (row t p) k) := by
  obtain ⟨e00, e01, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The aggregate tile at a point is the aggregate array's same rows. -/
theorem tile_a (c : Dev nD) (t : Fin cfg0.N) (p : Fin 10000) (k : Fin 128) :
    iblk0 V c 1 t (ix2 p k) = V c main_v18 (ix2 (row t p) k) := by
  obtain ⟨-, -, e10, e11, -⟩ := idx_facts t
  show V c main_v18 (((cfg0.win 1).blk t).view.emb (ix2 p k)) = V c main_v18 (ix2 (row t p) k)
  refine congrArg (V c main_v18) (funext fun a => Fin.ext ?_)
  match a with
  | ⟨0, _⟩ => show win0_1.index t (0 : Fin 2) * 10000 + 1 * p.val = t.val * 10000 + p.val; omega
  | ⟨1, _⟩ => show win0_1.index t (1 : Fin 2) * 128 + 1 * k.val = k.val; omega

/-- The weight window is the whole transposed weight at every point. -/
theorem tile_w (c : Dev nD) (t : Fin cfg0.N) (k q : Fin 128) :
    iblk0 V c 2 t (ix2 k q) = V c main_v19 (ix2 k q) := by
  obtain ⟨-, -, -, -, e20, e21, -⟩ := idx_facts t
  show V c main_v19 (((cfg0.win 2).blk t).view.emb (ix2 k q)) = V c main_v19 (ix2 k q)
  refine congrArg (V c main_v19) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias window is the whole bias row at every point. -/
theorem tile_b (c : Dev nD) (t : Fin cfg0.N) (q : Fin 128) :
    iblk0 V c 3 t (ix2 0 q) = V c main_v20 (ix2 0 q) := by
  obtain ⟨-, -, -, -, -, -, e30, e31, -⟩ := idx_facts t
  show V c main_v20 (((cfg0.win 3).blk t).view.emb (ix2 0 q)) = V c main_v20 (ix2 0 q)
  refine congrArg (V c main_v20) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- Entry `(p, q)` of the output tile at a point is entry `(10000·t + p, q)` of the output array. -/
theorem tile_out (t : Fin cfg0.N) (p : Fin 10000) (q : Fin 128) :
    ((cfg0.win 4).blk t).view.emb (ix2 p q) = ix2 (row t p) q := by
  obtain ⟨-, -, -, -, -, -, -, -, e40, e41⟩ := idx_facts t
  refine funext fun a => Fin.ext ?_
  match a with
  | ⟨0, _⟩ => show win0_4.index t (0 : Fin 2) * 10000 + 1 * p.val = t.val * 10000 + p.val; omega
  | ⟨1, _⟩ => show win0_4.index t (1 : Fin 2) * 128 + 1 * q.val = q.val; omega

/-- WHAT POINT `t` WRITES BACK is tile `t` of the layer's whole-array function of the arrays the call finds. -/
theorem flushed (c : Dev nD) (t : Fin cfg0.N) :
    (dat0 V c).flushed 4 t = ((cfg0.win 4).blk t).view.read (Elt Ideal)
      (layer (V c main_arg0) (V c main_v18) (V c main_v19) (V c main_v20)) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  refine (pay0_apply (iblk0 V c 0 t) (iblk0 V c 1 t) (iblk0 V c 2 t) (iblk0 V c 3 t) p q).trans ?_
  show _ = layer (V c main_arg0) (V c main_v18) (V c main_v19) (V c main_v20) (((cfg0.win 4).blk t).view.emb (ix2 p q))
  rw [tile_out]
  unfold rowEntry
  simp only [tile_x, tile_a, tile_w, tile_b]
  rfl

/-- An index of the output array is in point `t`'s tile iff each coordinate is in the tile's range on its axis. -/
theorem mem_tile (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v21).slice (win0_4.rect t)).set ↔ _
  rw [View.set_slice_whole, Rect.mem_set_unit]
  exact Iff.rfl

/-- The ten tiles cover the output array: row `r` lies in tile `r / 10000`. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  have ht : t.val = (i 0).val / 10000 := rfl
  obtain ⟨-, -, -, -, -, -, -, -, e40, e41⟩ := idx_facts t
  refine ⟨t, flush0_4 t, ?_⟩
  rw [mem_tile]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- THE OUTPUT ARRAY after the call: the layer's function of the arrays the call is entered with. -/
theorem region_value (c : Dev nD) :
    (dat0 V c).arrAt 4 cfg0.N = layer (V c main_arg0) (V c main_v18) (V c main_v19) (V c main_v20) :=
  (dat0 V c).arrAt_eq_of_cover 4 _ (fun t _ => flushed V c t) cover

end Cert.Gin.Region0

end
-- ==== Proof.KernelRegion1.lean ====
/-
  The second layer's call, from tiles to its whole output array.

  The call runs its body at ten grid points; at point `t` the body sees rows `10000·t … 10000·t + 9999` of the node
  array and of the aggregate, the whole transposed weight and the whole bias row, and what it stores is written back to
  the same rows of the output array. The stored tile is, entry by entry, the layer's row formula (the payload lemma);
  the tiles' rows are the arrays' rows (the index maps, decided over the grid); and the ten tiles cover the output. So
  the output array after the call is the layer's whole-array function of the four arrays the call is entered with,
  whatever those are: the statements are at an arbitrary entry contents `V`.
-/
import proofs.«148217_j75127567942136_1_alg».proof.Proof.Gen.KernelIdeal.Frame
import proofs.«148217_j75127567942136_1_alg».proof.Proof.KernelPayload

set_option maxRecDepth 16384

noncomputable section

namespace Cert.Gin.Region1

open Idealize.ShloMosaic Idealize.ShloMosaic.TcCoe Idealize.ShloMosaic.ValueIdx Idealize.SL.Sem
open Cert.KernelIdeal Cert.KernelIdeal.Gen Cert.Gin Cert.Gin.Payload
open Idealize.ShloMosaic.Pipeline (Dat Cfg Window)

variable (V : (c : Dev nD) → (b : Ref sig .tc) → Buf (Elt Ideal) ((c : Thread nD τ).loc b))

/-- This layer's whole-array function of the node array, the aggregate, the transposed weight and the bias row. -/
abbrev layer (x a : FVec Ideal Nodes .f32) (Wt : FVec Ideal Weights .f32) (brow : FVec Ideal BiasRow .f32) : FVec Ideal Nodes .f32 :=
  affineT x a Wt brow

theorem hz : (![0, 0] : Fin 2 → Nat) = fun _ => 0 := funext fun a => by fin_cases a <;> rfl

/-- The printed index maps of the call, decided once over its ten grid points: the node tile, the aggregate tile and
    the output tile all sit at row-block `t`, column-block `0`; the weight and the bias row are their whole arrays. -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = t.val ∧ win1_4.index t (1 : Fin 2) = 0 :=
  (by decide +kernel : ∀ t : Fin grid1.N, _)

/-- Row `p` of tile `t` is row `10000·t + p` of the node array. -/
def row (t : Fin cfg1.N) (p : Fin 10000) : Fin 100000 :=
  ⟨t.val * 10000 + p.val, by have h : t.val < 10 := lt_of_lt_of_eq t.isLt N_1; have := p.isLt; omega⟩

/-- The node tile at a point is the node array's rows `10000·t …`. -/
theorem tile_x (c : Dev nD) (t : Fin cfg1.N) (p : Fin 10000) (k : Fin 128) :
    iblk1 V c 0 t (ix2 p k) = V c main_v21 (ix2 (row t p) k) := by
  obtain ⟨e00, e01, -⟩ := idx_facts t
  show V c main_v21 (((cfg1.win 0).blk t).view.emb (ix2 p k)) = V c main_v21 (ix2 (row t p) k)
  refine congrArg (V c main_v21) (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * k.val = k.val; omega

/-- The aggregate tile at a point is the aggregate array's same rows. -/
theorem tile_a (c : Dev nD) (t : Fin cfg1.N) (p : Fin 10000) (k : Fin 128) :
    iblk1 V c 1 t (ix2 p k) = V c main_v40 (ix2 (row t p) k) := by
  obtain ⟨-, -, e10, e11, -⟩ := idx_facts t
  show V c main_v40 (((cfg1.win 1).blk t).view.emb (ix2 p k)) = V c main_v40 (ix2 (row t p) k)
  refine congrArg (V c main_v40) (funext fun a => Fin.ext ?_)
  match a with
  | ⟨0, _⟩ => show win1_1.index t (0 : Fin 2) * 10000 + 1 * p.val = t.val * 10000 + p.val; omega
  | ⟨1, _⟩ => show win1_1.index t (1 : Fin 2) * 128 + 1 * k.val = k.val; omega

/-- The weight window is the whole transposed weight at every point. -/
theorem tile_w (c : Dev nD) (t : Fin cfg1.N) (k q : Fin 128) :
    iblk1 V c 2 t (ix2 k q) = V c main_v41 (ix2 k q) := by
  obtain ⟨-, -, -, -, e20, e21, -⟩ := idx_facts t
  show V c main_v41 (((cfg1.win 2).blk t).view.emb (ix2 k q)) = V c main_v41 (ix2 k q)
  refine congrArg (V c main_v41) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias window is the whole bias row at every point. -/
theorem tile_b (c : Dev nD) (t : Fin cfg1.N) (q : Fin 128) :
    iblk1 V c 3 t (ix2 0 q) = V c main_v42 (ix2 0 q) := by
  obtain ⟨-, -, -, -, -, -, e30, e31, -⟩ := idx_facts t
  show V c main_v42 (((cfg1.win 3).blk t).view.emb (ix2 0 q)) = V c main_v42 (ix2 0 q)
  refine congrArg (V c main_v42) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- Entry `(p, q)` of the output tile at a point is entry `(10000·t + p, q)` of the output array. -/
theorem tile_out (t : Fin cfg1.N) (p : Fin 10000) (q : Fin 128) :
    ((cfg1.win 4).blk t).view.emb (ix2 p q) = ix2 (row t p) q := by
  obtain ⟨-, -, -, -, -, -, -, -, e40, e41⟩ := idx_facts t
  refine funext fun a => Fin.ext ?_
  match a with
  | ⟨0, _⟩ => show win1_4.index t (0 : Fin 2) * 10000 + 1 * p.val = t.val * 10000 + p.val; omega
  | ⟨1, _⟩ => show win1_4.index t (1 : Fin 2) * 128 + 1 * q.val = q.val; omega

/-- WHAT POINT `t` WRITES BACK is tile `t` of the layer's whole-array function of the arrays the call finds. -/
theorem flushed (c : Dev nD) (t : Fin cfg1.N) :
    (dat1 V c).flushed 4 t = ((cfg1.win 4).blk t).view.read (Elt Ideal)
      (layer (V c main_v21) (V c main_v40) (V c main_v41) (V c main_v42)) := by
  show (cfg1.win 4).cut (grid1.coords t) ((dat1 V c).after 4 t) = _
  rw [after1_4]
  unfold out1_4
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  refine (pay1_apply (iblk1 V c 0 t) (iblk1 V c 1 t) (iblk1 V c 2 t) (iblk1 V c 3 t) p q).trans ?_
  show _ = layer (V c main_v21) (V c main_v40) (V c main_v41) (V c main_v42) (((cfg1.win 4).blk t).view.emb (ix2 p q))
  rw [tile_out]
  unfold rowEntry
  simp only [tile_x, tile_a, tile_w, tile_b]
  rfl

/-- An index of the output array is in point `t`'s tile iff each coordinate is in the tile's range on its axis. -/
theorem mem_tile (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v43).slice (win1_4.rect t)).set ↔ _
  rw [View.set_slice_whole, Rect.mem_set_unit]
  exact Iff.rfl

/-- The ten tiles cover the output array: row `r` lies in tile `r / 10000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  have ht : t.val = (i 0).val / 10000 := rfl
  obtain ⟨-, -, -, -, -, -, -, -, e40, e41⟩ := idx_facts t
  refine ⟨t, flush1_4 t, ?_⟩
  rw [mem_tile]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- THE OUTPUT ARRAY after the call: the layer's function of the arrays the call is entered with. -/
theorem region_value (c : Dev nD) :
    (dat1 V c).arrAt 4 cfg1.N = layer (V c main_v21) (V c main_v40) (V c main_v41) (V c main_v42) :=
  (dat1 V c).arrAt_eq_of_cover 4 _ (fun t _ => flushed V c t) cover

end Cert.Gin.Region1

end
-- ==== Proof.Agg.lean ====
/-
  The neighbour aggregate, as the one chain of host operations both programs run: negative source indices wrapped by
  the node count, the source rows gathered, scatter-added onto their destination rows from zero, and divided by the
  in-degree (the scatter-added ones) raised to at least one. It is kept as a single term and never opened: the two
  programs apply it to the same arguments.
-/
import proofs.«148217_j75127567942136_1_alg».proof.Proof.Gen.KernelIdeal
import Idealize.ShloMosaic.PureOps.Ideal

noncomputable section

namespace Cert.Gin

open Idealize.ShloMosaic Cert.KernelIdeal Cert.KernelIdeal.Facts₀

/-- The mean of the source rows over each destination row's incoming edges (zero rows where there is none). -/
def agg (src dst : IVec S1600000 32) (x : FVec Ideal S100000x128 .f32) : FVec Ideal S100000x128 .f32 :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf (F := Ideal)
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

end Cert.Gin

end
-- ==== Proof.KernelHost.lean ====
/-
  What the arrays hold when each call is entered, as terms of the program's arguments.

  Before the first call the host has computed the aggregate of the features (the one chain of gather, scatter-add and
  division, kept whole), transposed the first weight and reshaped the first bias to a row; the features are as
  launched. Between the calls it does the same to the first call's output with the second weight and bias; the edge
  lists and the second weight and bias are still as launched, since neither the first stretch nor the first call
  writes them. Read at an index, the transposed weight at `(k, q)` is the weight at `(q, k)`, and the bias row at
  `(0, q)` is the bias at `q`.
-/
import proofs.«148217_j75127567942136_1_alg».proof.Proof.Gen.KernelIdeal.Frame
import proofs.«148217_j75127567942136_1_alg».proof.Proof.Agg
import proofs.«148217_j75127567942136_1_alg».proof.Proof.Spec
import Idealize.ShloMosaic.Lib.StableHlo.Run
import Idealize.ShloMosaic.Lib.Pipeline.Value
import Idealize.ShloMosaic.Lib.ValueIdx

set_option maxRecDepth 16384

noncomputable section

namespace Cert.Gin.HostSide

open Idealize.ShloMosaic Idealize.ShloMosaic.TcCoe Idealize.ShloMosaic.ValueIdx Idealize.SL.Sem Idealize.ShloMosaic.StableHlo
open Cert.KernelIdeal Cert.KernelIdeal.Gen Cert.Gin

/-! ## Layout operations read at an index -/

/-- The transposed weight at `(k, q)` is the weight at `(q, k)`. -/
theorem transposed_apply (W : FVec Ideal S128x128 .f32) (k q : Fin 128) :
    transpose S128x128 [1, 0] W Facts₀.transposes_S128x128_S128x128_1_0 (ix2 k q) = W (ix2 q k) :=
  transpose_apply [1, 0] W Facts₀.transposes_S128x128_S128x128_1_0 (ix2 k q) (ix2 q k) (fun b => match b with
    | ⟨0, _⟩ => rfl
    | ⟨1, _⟩ => rfl)

/-- The bias reshaped to a `[1, 128]` row, at `(0, q)`, is the bias at `q`. -/
theorem biasRow_apply (b : FVec Ideal S128 .f32) (q : Fin 128) :
    shapeCast S1x128 b Facts₀.shapeCasts_S128_S1x128 (ix2 0 q) = b (ix1 q) :=
  shapeCast_apply b Facts₀.shapeCasts_S128_S1x128 (ix2 0 q) (ix1 q) (by
    rw [Shape.rowMajor_val_one, Shape.rowMajor_val_two]
    show q.val = 0 * 128 + q.val
    omega)

/-! ## The two host stretches, from any contents `Wv` of the buffers -/

section Stretches

variable (Wv : Valuation τ sig (Elt Ideal))

theorem stretch0_arg0 : StableHlo.after hostOps0 Wv (Proc.devRef .tc main_arg0) = Wv (Proc.devRef .tc main_arg0) := by
  dsimp only [hostOps0]; after_results <;> rfl
theorem stretch0_arg1 : StableHlo.after hostOps0 Wv (Proc.devRef .tc main_arg1) = Wv (Proc.devRef .tc main_arg1) := by
  dsimp only [hostOps0]; after_results <;> rfl
theorem stretch0_arg2 : StableHlo.after hostOps0 Wv (Proc.devRef .tc main_arg2) = Wv (Proc.devRef .tc main_arg2) := by
  dsimp only [hostOps0]; after_results <;> rfl
theorem stretch0_arg5 : StableHlo.after hostOps0 Wv (Proc.devRef .tc main_arg5) = Wv (Proc.devRef .tc main_arg5) := by
  dsimp only [hostOps0]; after_results <;> rfl
theorem stretch0_arg6 : StableHlo.after hostOps0 Wv (Proc.devRef .tc main_arg6) = Wv (Proc.devRef .tc main_arg6) := by
  dsimp only [hostOps0]; after_results <;> rfl

set_option maxHeartbeats 8000000 in
/-- The first stretch leaves the aggregate of the features in the first call's second operand. -/
theorem stretch0_agg : StableHlo.after hostOps0 Wv (Proc.devRef .tc main_v18)
    = agg (Wv (Proc.devRef .tc main_arg1)) (Wv (Proc.devRef .tc main_arg2)) (Wv (Proc.devRef .tc main_arg0)) := by
  dsimp only [hostOps0]; after_results_simp <;> rfl

theorem stretch0_w : StableHlo.after hostOps0 Wv (Proc.devRef .tc main_v19)
    = transpose S128x128 [1, 0] (Wv (Proc.devRef .tc main_arg3)) Facts₀.transposes_S128x128_S128x128_1_0 := by
  dsimp only [hostOps0]; after_results <;> rfl

theorem stretch0_b : StableHlo.after hostOps0 Wv (Proc.devRef .tc main_v20)
    = shapeCast S1x128 (Wv (Proc.devRef .tc main_arg4)) Facts₀.shapeCasts_S128_S1x128 := by
  dsimp only [hostOps0]; after_results <;> rfl

theorem stretch1_x : StableHlo.after hostOps1 Wv (Proc.devRef .tc main_v21) = Wv (Proc.devRef .tc main_v21) := by
  dsimp only [hostOps1]; after_results <;> rfl

set_option maxHeartbeats 8000000 in
/-- The second stretch leaves the aggregate of the first call's output in the second call's second operand. -/
theorem stretch1_agg : StableHlo.after hostOps1 Wv (Proc.devRef .tc main_v40)
    = agg (Wv (Proc.devRef .tc main_arg1)) (Wv (Proc.devRef .tc main_arg2)) (Wv (Proc.devRef .tc main_v21)) := by
  dsimp only [hostOps1]; after_results_simp <;> rfl

theorem stretch1_w : StableHlo.after hostOps1 Wv (Proc.devRef .tc main_v41)
    = transpose S128x128 [1, 0] (Wv (Proc.devRef .tc main_arg5)) Facts₀.transposes_S128x128_S128x128_1_0 := by
  dsimp only [hostOps1]; after_results <;> rfl

theorem stretch1_b : StableHlo.after hostOps1 Wv (Proc.devRef .tc main_v42)
    = shapeCast S1x128 (Wv (Proc.devRef .tc main_arg6)) Facts₀.shapeCasts_S128_S1x128 := by
  dsimp only [hostOps1]; after_results <;> rfl

end Stretches

variable (m : (ℓ : Loc nD τ sig) → Buf (Elt Ideal) ℓ) (ρ : Dev nD → PrngReg)

/-! ## The first call's entry contents -/

theorem entry0_x (c : Dev nD) : V1 m ρ c main_arg0 = m ((c : Thread nD τ).loc main_arg0) :=
  stretch0_arg0 (W0 m ρ c)

theorem entry0_agg (c : Dev nD) :
    V1 m ρ c main_v18 = agg (m ((c : Thread nD τ).loc main_arg1)) (m ((c : Thread nD τ).loc main_arg2)) (m ((c : Thread nD τ).loc main_arg0)) :=
  stretch0_agg (W0 m ρ c)

theorem entry0_w (c : Dev nD) :
    V1 m ρ c main_v19 = transpose S128x128 [1, 0] (m ((c : Thread nD τ).loc main_arg3)) Facts₀.transposes_S128x128_S128x128_1_0 :=
  stretch0_w (W0 m ρ c)

theorem entry0_b (c : Dev nD) :
    V1 m ρ c main_v20 = shapeCast S1x128 (m ((c : Thread nD τ).loc main_arg4)) Facts₀.shapeCasts_S128_S1x128 :=
  stretch0_b (W0 m ρ c)

/-! ## The second call's entry contents -/

/-- An argument the first stretch and the first call leave alone is as launched at the first call's exit. -/
theorem exit0_arg1 (c : Dev nD) : W2 m ρ c (Proc.devRef .tc main_arg1) = m ((c : Thread nD τ).loc main_arg1) :=
  (W2_of_ne m ρ c main_arg1 (by decide)).trans (stretch0_arg1 (W0 m ρ c))
theorem exit0_arg2 (c : Dev nD) : W2 m ρ c (Proc.devRef .tc main_arg2) = m ((c : Thread nD τ).loc main_arg2) :=
  (W2_of_ne m ρ c main_arg2 (by decide)).trans (stretch0_arg2 (W0 m ρ c))
theorem exit0_arg5 (c : Dev nD) : W2 m ρ c (Proc.devRef .tc main_arg5) = m ((c : Thread nD τ).loc main_arg5) :=
  (W2_of_ne m ρ c main_arg5 (by decide)).trans (stretch0_arg5 (W0 m ρ c))
theorem exit0_arg6 (c : Dev nD) : W2 m ρ c (Proc.devRef .tc main_arg6) = m ((c : Thread nD τ).loc main_arg6) :=
  (W2_of_ne m ρ c main_arg6 (by decide)).trans (stretch0_arg6 (W0 m ρ c))

/-- The first call's output array at its exit is what its ten write-backs leave. -/
theorem exit0_out (c : Dev nD) : W2 m ρ c (Proc.devRef .tc main_v21) = (dat0 (V1 m ρ) c).arrAt 4 cfg0.N :=
  W2_arr m ρ c 4

theorem entry1_x (c : Dev nD) : V3 m ρ c main_v21 = (dat0 (V1 m ρ) c).arrAt 4 cfg0.N :=
  (stretch1_x (W2 m ρ c)).trans (exit0_out m ρ c)

theorem entry1_agg (c : Dev nD) :
    V3 m ρ c main_v40 = agg (m ((c : Thread nD τ).loc main_arg1)) (m ((c : Thread nD τ).loc main_arg2)) ((dat0 (V1 m ρ) c).arrAt 4 cfg0.N) := by
  refine (stretch1_agg (W2 m ρ c)).trans ?_
  rw [exit0_arg1, exit0_arg2, exit0_out]

theorem entry1_w (c : Dev nD) :
    V3 m ρ c main_v41 = transpose S128x128 [1, 0] (m ((c : Thread nD τ).loc main_arg5)) Facts₀.transposes_S128x128_S128x128_1_0 := by
  refine (stretch1_w (W2 m ρ c)).trans ?_
  rw [exit0_arg5]

theorem entry1_b (c : Dev nD) :
    V3 m ρ c main_v42 = shapeCast S1x128 (m ((c : Thread nD τ).loc main_arg6)) Facts₀.shapeCasts_S128_S1x128 := by
  refine (stretch1_b (W2 m ρ c)).trans ?_
  rw [exit0_arg6]

end Cert.Gin.HostSide

end
-- ==== Proof.KernelValue.lean ====
/-
  The kernel program's result array, as the network of its arguments.

  The last call's output is the second layer's function of the arrays it is entered with; those are the first call's
  output, its aggregate, the second weight transposed and the second bias as a row. The first call's output is in turn
  the first layer's function, under `max(·, 0)`, of the features, their aggregate, the first weight transposed and the
  first bias as a row. Reading each transposed weight and bias row back to the weight and the bias turns both into
  `affine`, and the composition is `network`.
-/
import proofs.«148217_j75127567942136_1_alg».proof.Proof.KernelRegion0
import proofs.«148217_j75127567942136_1_alg».proof.Proof.KernelRegion1
import proofs.«148217_j75127567942136_1_alg».proof.Proof.KernelHost

set_option maxRecDepth 16384

noncomputable section

namespace Cert.Gin.KernelSide

open Idealize.ShloMosaic Idealize.ShloMosaic.TcCoe Idealize.ShloMosaic.ValueIdx Idealize.SL.Sem
open Cert.KernelIdeal Cert.KernelIdeal.Gen Cert.Gin Cert.Gin.HostSide

variable (m : (ℓ : Loc nD τ sig) → Buf (Elt Ideal) ℓ) (ρ : Dev nD → PrngReg)

/-- After the first call its output array holds the first layer of the features, cut off below at zero. -/
theorem layer1_value (c : Dev nD) :
    (dat0 (V1 m ρ) c).arrAt 4 cfg0.N
      = relu (affine (m ((c : Thread nD τ).loc main_arg0)) (agg (m ((c : Thread nD τ).loc main_arg1)) (m ((c : Thread nD τ).loc main_arg2)) (m ((c : Thread nD τ).loc main_arg0)))
          (m ((c : Thread nD τ).loc main_arg3)) (m ((c : Thread nD τ).loc main_arg4))) := by
  rw [Region0.region_value (V1 m ρ) c, entry0_x, entry0_agg, entry0_w, entry0_b]
  show relu (affineT _ _ _ _) = _
  rw [affineT_eq _ _ _ (m ((c : Thread nD τ).loc main_arg3)) _ (m ((c : Thread nD τ).loc main_arg4))
    (fun k q => transposed_apply _ k q) (fun q => biasRow_apply _ q)]

/-- At the end of the run the result array holds the network of the arguments. -/
theorem result_value (c : Dev nD) :
    W4 m ρ c (Proc.devRef .tc main_v43)
      = network (agg (m ((c : Thread nD τ).loc main_arg1)) (m ((c : Thread nD τ).loc main_arg2))) (m ((c : Thread nD τ).loc main_arg0))
          (m ((c : Thread nD τ).loc main_arg3)) (m ((c : Thread nD τ).loc main_arg4)) (m ((c : Thread nD τ).loc main_arg5)) (m ((c : Thread nD τ).loc main_arg6)) := by
  refine (W4_arr m ρ c 4).trans ?_
  rw [Region1.region_value (V3 m ρ) c, entry1_x, entry1_agg, entry1_w, entry1_b, layer1_value]
  show affineT _ _ _ _ = _
  rw [affineT_eq _ _ _ (m ((c : Thread nD τ).loc main_arg5)) _ (m ((c : Thread nD τ).loc main_arg6))
    (fun k q => transposed_apply _ k q) (fun q => biasRow_apply _ q)]
  rfl

end Cert.Gin.KernelSide

end
-- ==== Proof.RefValue.lean ====
/-
  The reference computes the network.

  Its host program is the same chain for the aggregate, then `(x + agg) · Wᵀ + b` as one whole-array product, with
  `max(·, 0)` after the first layer. Read at an index: the product at `(r, q)` is the sum over `k` of
  `(x + agg)[r, k] · W[q, k]` (the transpose read back to the weight), and the bias broadcast twice is `b[q]`. That is
  `affine` entry by entry. The two aggregates are `agg`, by unfolding their stages.
-/
import proofs.«148217_j75127567942136_1_alg».proof.Proof.Gen.ReferenceIdeal.Read
import proofs.«148217_j75127567942136_1_alg».proof.Proof.Agg
import proofs.«148217_j75127567942136_1_alg».proof.Proof.Spec

set_option maxRecDepth 16384

noncomputable section

namespace Cert.Gin.RefSide

open Idealize.ShloMosaic Idealize.ShloMosaic.ValueIdx
open Cert.ReferenceIdeal Cert.ReferenceIdeal.Read Cert.Gin

/-! ## The index maps of the reference's layout operations, in coordinates -/

theorem lhs_idx1 (i : S100000x128.Idx) (k : Fin 128) : lidx_main_v21 i k = ix2 ⟨(i 0).val, (i 0).isLt⟩ k :=
  funext fun a => by match a with | ⟨0, _⟩ => rfl | ⟨1, _⟩ => rfl
theorem rhs_idx1 (i : S100000x128.Idx) (k : Fin 128) : idx_main_v20 (ridx_main_v21 i k) = ix2 ⟨(i 1).val, (i 1).isLt⟩ k :=
  funext fun a => by match a with | ⟨0, _⟩ => rfl | ⟨1, _⟩ => rfl
theorem bias_idx1 (i : S100000x128.Idx) : idx_main_v22 (idx_main_v23 i) = ix1 ⟨(i 1).val, (i 1).isLt⟩ :=
  funext fun a => by match a with | ⟨0, _⟩ => rfl
theorem lhs_idx2 (i : S100000x128.Idx) (k : Fin 128) : lidx_main_v47 i k = ix2 ⟨(i 0).val, (i 0).isLt⟩ k :=
  funext fun a => by match a with | ⟨0, _⟩ => rfl | ⟨1, _⟩ => rfl
theorem rhs_idx2 (i : S100000x128.Idx) (k : Fin 128) : idx_main_v46 (ridx_main_v47 i k) = ix2 ⟨(i 1).val, (i 1).isLt⟩ k :=
  funext fun a => by match a with | ⟨0, _⟩ => rfl | ⟨1, _⟩ => rfl
theorem bias_idx2 (i : S100000x128.Idx) : idx_main_v48 (idx_main_v49 i) = ix1 ⟨(i 1).val, (i 1).isLt⟩ :=
  funext fun a => by match a with | ⟨0, _⟩ => rfl

/-! ## The aggregates are the one chain -/

theorem agg1_eq (x0 : FVec Ideal S100000x128 .f32) (x1 x2 : IVec S1600000 32) :
    val_main_v18 (F := Ideal) x0 x1 x2 = agg x1 x2 x0 := rfl

theorem agg2_eq (x0 : FVec Ideal S100000x128 .f32) (x1 x2 : IVec S1600000 32) (x3 : FVec Ideal S128x128 .f32) (x4 : FVec Ideal S128 .f32) :
    val_main_v44 (F := Ideal) x0 x1 x2 x3 x4 = agg x1 x2 (val_main_v25 (F := Ideal) x0 x1 x2 x3 x4) := rfl

/-! ## The layers -/

/-- The first layer and its `max(·, 0)`. -/
theorem layer1_eq (x0 : FVec Ideal S100000x128 .f32) (x1 x2 : IVec S1600000 32) (x3 : FVec Ideal S128x128 .f32) (x4 : FVec Ideal S128 .f32) :
    val_main_v25 (F := Ideal) x0 x1 x2 x3 x4 = relu (affine x0 (val_main_v18 (F := Ideal) x0 x1 x2) x3 x4) := by
  funext i
  rw [val_main_v25_apply, val_main_v24_apply, val_main_v21_apply, val_main_v23_apply, val_main_v22_apply,
    val_main_call0_v0_apply, val_main_call0_cst_apply]
  simp only [val_main_v19_apply, val_main_v20_apply, lhs_idx1, rhs_idx1, bias_idx1]
  show max ((∑ k : Fin 128, (x0 (ix2 ⟨(i 0).val, (i 0).isLt⟩ k) + val_main_v18 (F := Ideal) x0 x1 x2 (ix2 ⟨(i 0).val, (i 0).isLt⟩ k))
      * x3 (ix2 ⟨(i 1).val, (i 1).isLt⟩ k)) + x4 (ix1 ⟨(i 1).val, (i 1).isLt⟩)) (Ideal.ofBits .f32 0x00000000#32) = _
  rw [Ideal.ofBits_zero_f32]
  rfl

/-- The second layer, over the first layer's output `h` and its aggregate `a`. -/
theorem layer2_eq (x0 : FVec Ideal S100000x128 .f32) (x1 x2 : IVec S1600000 32) (x3 : FVec Ideal S128x128 .f32) (x4 : FVec Ideal S128 .f32)
    (x5 : FVec Ideal S128x128 .f32) (x6 : FVec Ideal S128 .f32) :
    val_main_v50 (F := Ideal) x0 x1 x2 x3 x4 x5 x6
      = affine (val_main_v25 (F := Ideal) x0 x1 x2 x3 x4) (val_main_v44 (F := Ideal) x0 x1 x2 x3 x4) x5 x6 := by
  funext i
  rw [val_main_v50_apply, val_main_v47_apply, val_main_v49_apply, val_main_v48_apply]
  simp only [val_main_v45_apply, val_main_v46_apply, lhs_idx2, rhs_idx2, bias_idx2]
  rfl

/-- The reference's result is the network of its arguments. -/
theorem result_eq (x0 : FVec Ideal S100000x128 .f32) (x1 x2 : IVec S1600000 32) (x3 : FVec Ideal S128x128 .f32) (x4 : FVec Ideal S128 .f32)
    (x5 : FVec Ideal S128x128 .f32) (x6 : FVec Ideal S128 .f32) :
    val_main_v50 (F := Ideal) x0 x1 x2 x3 x4 x5 x6 = network (agg x1 x2) x0 x3 x4 x5 x6 := by
  rw [layer2_eq, agg2_eq, layer1_eq, agg1_eq]
  rfl

end Cert.Gin.RefSide

end
-- ==== Proof.lean ====
/-
  The certificate of a two-layer graph network kernel against its jnp reference, over the extended reals.

  Both programs compute, for node features `x` of shape `[100000, 128]`, edge lists `src`, `dst`, weights `W1`, `W2` and
  biases `b1`, `b2`,

      h  = max((x + agg x) · W1ᵀ + b1, 0),      out = (h + agg h) · W2ᵀ + b2,

  where `agg` is the mean of the source rows over each destination's incoming edges. The aggregate is computed on the
  host by both, by the same chain of operations applied to the same arguments, and is never opened. What differs is the
  dense stage: the kernel program runs it as two calls tiled over ten blocks of 10000 rows, each tile a matrix-unit
  product into a zero accumulator plus the broadcast bias row; the reference runs one whole-array product. At the
  extended reals both are the same sum of 128 products per entry, plus the bias; no finiteness is used, since the sum's
  terms are the same and only their grouping over tiles differs.

  The three frames: the two kernel programs' are the generated frame certificates; the reference's is its generated
  run with the result dropped. The idealization rewrote no operation, so `preserves` is `True`. The algebraic claim
  takes the kernel program's run with its result array named (the launch theorem called once more), reads that array
  as `network` of the arguments (the two calls' tiles to arrays, the host stretches read back), and reads the
  reference's result term as the same `network` (the generated index lemmas, one operation at a time).
-/
import proofs.«148217_j75127567942136_1_alg».proof.Defs
import proofs.«148217_j75127567942136_1_alg».proof.Proof.Gen.Kernel
import proofs.«148217_j75127567942136_1_alg».proof.Proof.Gen.Kernel.Frame
import proofs.«148217_j75127567942136_1_alg».proof.Proof.Gen.KernelIdeal
import proofs.«148217_j75127567942136_1_alg».proof.Proof.Gen.KernelIdeal.Frame
import proofs.«148217_j75127567942136_1_alg».proof.Proof.Gen.ReferenceIdeal
import proofs.«148217_j75127567942136_1_alg».proof.Proof.Gen.ReferenceIdeal.Run
import proofs.«148217_j75127567942136_1_alg».proof.Proof.Gen.ReferenceIdeal.Read
import proofs.«148217_j75127567942136_1_alg».proof.Proof.Gen.Pre_finite_inputs
import proofs.«148217_j75127567942136_1_alg».proof.Proof.KernelRun
import proofs.«148217_j75127567942136_1_alg».proof.Proof.KernelValue
import proofs.«148217_j75127567942136_1_alg».proof.Proof.RefValue
import Idealize.ShloMosaic.Adequacy
import Idealize.ShloMosaic.Init

noncomputable section

namespace Cert.Proof

open Idealize.ShloMosaic Idealize.ShloMosaic.TcCoe Idealize.SL.Sem Cert.Gin

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the network of those arguments in their result. -/
theorem algebraic : Cert.algebraic_KernelIdeal_ReferenceIdeal := by
  intro m ρ m' ρ' _ hagree
  refine ⟨fun c => network (agg (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Gin.KernelSide.result_value m ρ c), (h c).2⟩)
      (Cert.KernelIdeal.RunNamed.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v50_eq, Cert.Gin.RefSide.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
